-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x128 .f32) (main_arg1 : FVec F S4096x4096 .f32) (main_arg2 : FVec F S128x128 .f32) (main_arg3 : FVec F S128 .f32) (main_arg4 : FVec F S128 .f32) (main_arg5 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S1x128 : Shape := ⟨2, ![1, 128]⟩
abbrev S4096 : Shape := ⟨1, ![4096]⟩
abbrev S4096x1 : Shape := ⟨2, ![4096, 1]⟩
abbrev S512x4096 : Shape := ⟨2, ![512, 4096]⟩
abbrev S512x128 : Shape := ⟨2, ![512, 128]⟩

abbrev nBuf : Space → Nat
  | .hbm => 11
  | .vmem => 11
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S4096x128, .f32⟩
  | .hbm, ⟨10, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S4096x128, .f32⟩
  | .local _ .vmem, ⟨6, _⟩ => ⟨S4096x128, .f32⟩
  | .local _ .vmem, ⟨7, _⟩ => ⟨S512x4096, .f32⟩
  | .local _ .vmem, ⟨8, _⟩ => ⟨S512x4096, .f32⟩
  | .local _ .vmem, ⟨9, _⟩ => ⟨S512x128, .f32⟩
  | .local _ .vmem, ⟨10, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  reduces_S4096x128_S128 : S4096x128.Reduces [0] S128
  broadcasts_S1x128_S4096x128 : S1x128.Broadcasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  inb_S512x4096_S512x4096_0_0 : ∀ a, (![0, 0] : Fin 2 → Nat) a + S512x4096.size a ≤ S512x4096.size a
  h_S512x4096 : 0 < S512x4096.numel
  shapeCasts_S4096x128_S4096x128 : S4096x128.ShapeCasts S4096x128
  inb_S512x128_S512x128_0_0 : ∀ a, (![0, 0] : Fin 2 → Nat) a + S512x128.size a ≤ S512x128.size a
  h_S512x128 : 0 < S512x128.numel
  dot_S4096x128_S128x128_S4096x128_1_1_0_0_n_n_wf : DotDims.WF S4096x128 S128x128 S4096x128 [1] [1] [0] [0] [] []
  dot_S512x4096_S4096x128_S512x128_1_0_0_1_n_n_wf : DotDims.WF S512x4096 S4096x128 S512x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .f32 = 32 ∨ (Rect.block (s := S4096x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S4096x128.size a
  hwx1_2 : ∀ i : grid1.Coords, EltTy.bits .f32 = 32 ∨ (Rect.block (s := S4096x128) S512x128.size (cc1_transform_2 i) (hinb1_2 i)).WholeWords (EltTy.packing .f32)

variable [Facts₀]

def dot_S4096x128_S128x128_S4096x128_1_1_0_0_n_n : DotDims S4096x128 S128x128 S4096x128 where
  lhsContracting := [1]
  rhsContracting := [1]
  lhsNonContracting := [0]
  rhsNonContracting := [0]
  lhsBatch := []
  rhsBatch := []
  wf := dot_S4096x128_S128x128_S4096x128_1_1_0_0_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v1) false false (stage0_3 0) (sem0_3 0) (Memref.isWhole_whole _) (hstage0_3 0)

abbrev win0_4 : Pipeline.Window sig grid0 :=
  Pipeline.Window.whole (Memref.whole main_v2) false false (stage0_4 0) (sem0_4 0) (Memref.isWhole_whole _) (hstage0_4 0)

abbrev win0_5 : Pipeline.Window sig grid0 :=
  Pipeline.Window.whole (Memref.whole main_v3) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3) S4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S4096x128, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x128, .f32⟩
  | .hbm, ⟨15, _⟩ => ⟨S4096x128, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S4096x128, .f32⟩
  | .hbm, ⟨46, _⟩ => ⟨S4096x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S4096x128, .f32⟩
  | .hbm, ⟨53, _⟩ => ⟨S4096x128, .f32⟩
  | .hbm, ⟨54, _⟩ => ⟨S1x128, .f32⟩
  | .hbm, ⟨55, _⟩ => ⟨S4096x128, .f32⟩
  | .hbm, ⟨56, _⟩ => ⟨S4096x128, .f32⟩
  | .hbm, ⟨57, _⟩ => ⟨S1x128, .f32⟩
  | .hbm, ⟨58, _⟩ => ⟨S4096x128, .f32⟩
  | .hbm, ⟨59, _⟩ => ⟨S4096x128, .f32⟩
  | .hbm, ⟨60, _⟩ => ⟨S128x128, .f32⟩
  | .hbm, ⟨61, _⟩ => ⟨S4096x128, .f32⟩
  | .hbm, ⟨62, _⟩ => ⟨S1x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S_, .f32⟩
  | .hbm, ⟨67, _⟩ => ⟨S4096x128, .f32⟩
  | .hbm, ⟨68, _⟩ => ⟨S4096x128, .i1⟩
  | .hbm, ⟨69, _⟩ => ⟨S_, .f32⟩
  | .hbm, ⟨70, _⟩ => ⟨S4096x128, .f32⟩
  | .hbm, ⟨71, _⟩ => ⟨S4096x128, .f32⟩
  | .hbm, ⟨72, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_cst_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_cst_1 : Ref sig .tc := ⟨.hbm, 32, rfl⟩
abbrev main_call1_v8 : Ref sig .tc := ⟨.hbm, 33, rfl⟩
abbrev main_call1_cst_2 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_cst_3 : Ref sig .tc := ⟨.hbm, 38, rfl⟩
abbrev main_call1_v12 : Ref sig .tc := ⟨.hbm, 39, rfl⟩
abbrev main_call1_cst_4 : Ref sig .tc := ⟨.hbm, 40, rfl⟩
abbrev main_call1_call0_v0 : Ref sig .tc := ⟨.hbm, 41, rfl⟩
abbrev main_call1_call0_v1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_cst_2 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_3 : Ref sig .tc := ⟨.hbm, 66, rfl⟩
abbrev main_v30 : Ref sig .tc := ⟨.hbm, 67, rfl⟩
abbrev main_v31 : Ref sig .tc := ⟨.hbm, 68, rfl⟩
abbrev main_cst_4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  reducesTo_S4096x128_S128_d0 : S4096x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S4096x128_0_1 : S1x128.BroadcastsInDim S4096x128 (![0, 1] : Fin 2 → Fin S4096x128.rank)
  transposes_S128x128_S128x128_1_0 : S128x128.Transposes [1, 0] S128x128
  bcast_S_S4096x128 : S_.BroadcastsInDim S4096x128 (![] : Fin 0 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Region0.lean ====
/-
  The first region (normalisation, batch statistics, linear layer) read as a value. Its grid is a single point and every
  window is the whole array, so the result array after the region is the body's one stored value: the payload of the
  whole input arrays.
-/
import proofs.«125105_g35983236006066_cont_8to1_b_995_4_alg».proof.Proof.Gen.KernelIdeal.Frame
import Idealize.ShloMosaic.Lib.Pipeline.Value
import Idealize.ShloMosaic.PureOps.Ideal
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's accesses all start at offset zero on both axes. -/
theorem off_zero : (![0, 0] : Fin 2 → Nat) = fun _ => 0 := funext fun a => by fin_cases a <;> rfl

/-! ## A window over the whole array

With no grid a window has one block: block index zero on every axis, of the array's own sizes. Its offsets are
`0 * size`, so the block's view of the array is the array's own view, and reading ANY contents of the array through
it gives those contents back. One lemma per window, over contents `f` of the literal type. -/

theorem read_whole0 (t : Fin cfg0.N) (f : Vec Ideal S4096x128 .f32) :
    ((cfg0.win 0).blk t).view.read (Elt Ideal) f = f :=
  Memref.read_access_unit_zero (Elt Ideal) main_arg0 (off := fun a => win0_0.index t a * main_arg0.ty.shape.size a)
    (funext fun a => Nat.zero_mul _) _ f

theorem read_whole1 (t : Fin cfg0.N) (f : Vec Ideal S128x128 .f32) :
    ((cfg0.win 1).blk t).view.read (Elt Ideal) f = f :=
  Memref.read_access_unit_zero (Elt Ideal) main_arg2 (off := fun a => win0_1.index t a * main_arg2.ty.shape.size a)
    (funext fun a => Nat.zero_mul _) _ f

theorem read_whole2 (t : Fin cfg0.N) (f : Vec Ideal S1x128 .f32) :
    ((cfg0.win 2).blk t).view.read (Elt Ideal) f = f :=
  Memref.read_access_unit_zero (Elt Ideal) main_v0 (off := fun a => win0_2.index t a * main_v0.ty.shape.size a)
    (funext fun a => Nat.zero_mul _) _ f

theorem read_whole3 (t : Fin cfg0.N) (f : Vec Ideal S1x128 .f32) :
    ((cfg0.win 3).blk t).view.read (Elt Ideal) f = f :=
  Memref.read_access_unit_zero (Elt Ideal) main_v1 (off := fun a => win0_3.index t a * main_v1.ty.shape.size a)
    (funext fun a => Nat.zero_mul _) _ f

theorem read_whole4 (t : Fin cfg0.N) (f : Vec Ideal S1x128 .f32) :
    ((cfg0.win 4).blk t).view.read (Elt Ideal) f = f :=
  Memref.read_access_unit_zero (Elt Ideal) main_v2 (off := fun a => win0_4.index t a * main_v2.ty.shape.size a)
    (funext fun a => Nat.zero_mul _) _ f

theorem read_whole5 (t : Fin cfg0.N) (f : Vec Ideal S4096x128 .f32) :
    ((cfg0.win 5).blk t).view.read (Elt Ideal) f = f :=
  Memref.read_access_unit_zero (Elt Ideal) main_v3 (off := fun a => win0_5.index t a * main_v3.ty.shape.size a)
    (funext fun a => Nat.zero_mul _) _ f

/-- Every index of the result array lies in the one block of its window. -/
theorem mem_whole5 (t : Fin cfg0.N) (i : S4096x128.Idx) : i ∈ ((cfg0.win 5).blk t).view.set := by
  show i ∈ ((View.whole main_v3).slice (win0_5.rect t)).set
  rw [View.set_slice_whole, Rect.mem_set_unit]
  intro a
  show win0_5.index t a * S4096x128.size a ≤ (i a).val ∧ (i a).val < win0_5.index t a * S4096x128.size a + S4096x128.size a
  rw [show win0_5.index t a = 0 from rfl, Nat.zero_mul, Nat.zero_add]
  exact ⟨Nat.zero_le _, (i a).isLt⟩

/-! ## Each input block is its whole array -/

theorem iblk0_0 (c : Dev nD) (t : Fin cfg0.N) : iblk0 V c 0 t = V c main_arg0 := by
  unfold iblk0; exact read_whole0 t (V c main_arg0)
theorem iblk0_1 (c : Dev nD) (t : Fin cfg0.N) : iblk0 V c 1 t = V c main_arg2 := by
  unfold iblk0; exact read_whole1 t (V c main_arg2)
theorem iblk0_2 (c : Dev nD) (t : Fin cfg0.N) : iblk0 V c 2 t = V c main_v0 := by
  unfold iblk0; exact read_whole2 t (V c main_v0)
theorem iblk0_3 (c : Dev nD) (t : Fin cfg0.N) : iblk0 V c 3 t = V c main_v1 := by
  unfold iblk0; exact read_whole3 t (V c main_v1)
theorem iblk0_4 (c : Dev nD) (t : Fin cfg0.N) : iblk0 V c 4 t = V c main_v2 := by
  unfold iblk0; exact read_whole4 t (V c main_v2)

/-! ## What the one point writes back, and the array after the region -/

/-- What the body leaves in the result's staging buffer is its payload of the five input blocks: one store through
    the whole-buffer rectangle, each load through a whole-buffer rectangle. Stated over ANY blocks. -/
theorem out_eq (x0 : Vec Ideal S4096x128 .f32) (x1 : Vec Ideal S128x128 .f32) (x2 x3 x4 : Vec Ideal S1x128 .f32) :
    out0_5 x0 x1 x2 x3 x4 = k0_pay1 x0 x3 x4 x1 x2 := by
  unfold out0_5
  rw [View.canon_unit_zero off_zero]
  simp only [View.ld_unit_zero (S := S4096x128) off_zero, View.ld_unit_zero (S := S128x128) off_zero,
    View.ld_unit_zero (S := S1x128) off_zero]

/-- The write-back at the grid's point is the block (the whole) of the payload of the whole input arrays. -/
theorem flushed_eq (c : Dev nD) (t : Fin cfg0.N) :
    (dat0 V c).flushed 5 t
      = ((cfg0.win 5).blk t).view.read (Elt Ideal)
          (k0_pay1 (V c main_arg0) (V c main_v1) (V c main_v2) (V c main_arg2) (V c main_v0)) := by
  show (cfg0.win 5).cut (grid0.coords t) ((dat0 V c).after 5 t) = _
  rw [after0_5, out_eq, iblk0_0, iblk0_1, iblk0_2, iblk0_3, iblk0_4]
  exact (read_whole5 t _).symm

/-- The first region's result array, from ANY contents `V` at the region's entry: the body's payload of the whole
    arrays (features, scale row, shift row, weights, bias row). -/
theorem final0 (c : Dev nD) :
    (dat0 V c).arrAt 5 cfg0.N
      = k0_pay1 (V c main_arg0) (V c main_v1) (V c main_v2) (V c main_arg2) (V c main_v0) :=
  (dat0 V c).arrAt_eq_of_cover 5 _ (fun t _ => flushed_eq V c t)
    fun i => ⟨t0_0, flush0_5 t0_0, mem_whole5 t0_0 i⟩

end Cert.KernelIdeal.Region0

end
-- ==== Proof.Spec.lean ====
/-
  The last layer of the graph-convolution, as one function of whole arrays, index by index: the product of the
  normalised adjacency matrix A (4096 × 4096) with the features L (4096 × 128), followed by the leaky rectifier of
  slope c (the single-precision number nearest 0.01, kept as its bit pattern):

      out (i, j) = a            if a ≥ 0,
                   c · a        otherwise,          where a = ∑ₖ A (i, k) · L (k, j).

  Both programs end in this function: the kernel computes it one block of 512 rows at a time, the reference in one
  matrix product.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One entry of the adjacency product: ∑ₖ A (i, k) · L (k, j). -/
def adjDot (A : FVec Ideal ⟨2, ![4096, 4096]⟩ .f32) (L : FVec Ideal ⟨2, ![4096, 128]⟩ .f32) (i : Fin 4096) (j : Fin 128) : EReal :=
  ∑ k : Fin 4096, A (ix2 i k) * L (ix2 k j)

/-- The leaky rectifier of slope 0x3C23D70A on one extended real. -/
def leaky (a : EReal) : EReal :=
  Scalar.select (Ideal.cmp .oge a 0) a (Ideal.ofBits .f32 0x3C23D70A#32 * a)

/-- The adjacency product followed by the leaky rectifier, entry by entry. -/
def leakyMM (A : FVec Ideal ⟨2, ![4096, 4096]⟩ .f32) (L : FVec Ideal ⟨2, ![4096, 128]⟩ .f32) : FVec Ideal ⟨2, ![4096, 128]⟩ .f32 :=
  fun idx => leaky (adjDot A L (idx 0) (idx 1))

theorem leakyMM_apply (A : FVec Ideal ⟨2, ![4096, 4096]⟩ .f32) (L : FVec Ideal ⟨2, ![4096, 128]⟩ .f32) (i : Fin 4096) (j : Fin 128) :
    leakyMM A L (ix2 i j) = leaky (adjDot A L i j) := rfl

end Cert.Spec

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.Region1.lean ====
/-
  The second region (the adjacency product) read as a value. Its grid has eight points; point t stages rows
  512·t … 512·t + 511 of the adjacency matrix A and the whole feature array L, and writes back rows 512·t … 512·t + 511
  of the result: the block's matrix product followed by the leaky rectifier. The eight blocks tile the result, so the
  result array after the region is, entry by entry, the leaky rectifier of ∑ₖ A (i, k) · L (k, j).
-/
import proofs.«125105_g35983236006066_cont_8to1_b_995_4_alg».proof.Proof.Gen.KernelIdeal.Frame
import proofs.«125105_g35983236006066_cont_8to1_b_995_4_alg».proof.Proof.Spec
import proofs.«125105_g35983236006066_cont_8to1_b_995_4_alg».proof.Proof.LibPlainDot
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The literal zero offsets of a whole-buffer access are the zero function. -/
theorem zero_off : (![0, 0] : Fin 2 → Nat) = fun _ => 0 := funext fun a => by
  match a with
  | ⟨0, _⟩ => rfl
  | ⟨1, _⟩ => rfl

/-- The matrix product's operand indices at output index i and contraction index q: the left operand is read at
    (i 0, q), the right operand at (q, i 1). One fact per operand axis. -/
theorem lhs_axis0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide),
    dif_pos (show (0 : Fin S512x4096.rank) ∈ dot_S512x4096_S4096x128_S512x128_1_0_0_1_n_n.lhsNonContracting by decide)]
  rfl

theorem lhs_axis1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q

theorem rhs_axis0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q

theorem rhs_axis1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide),
    dif_pos (show (1 : Fin S4096x128.rank) ∈ dot_S512x4096_S4096x128_S512x128_1_0_0_1_n_n.rhsNonContracting by decide)]
  rfl

/-- The body's stored value at (r, j): the leaky rectifier of row r of the staged block times column j of the features. -/
theorem pay_apply (x1 : Vec Ideal S512x4096 .f32) (x0 : Vec Ideal S4096x128 .f32) (r : Fin 512) (j : Fin 128) :
    k1_pay1 x1 x0 (ix2 r j) = Cert.Spec.leaky (∑ k : Fin 4096, x1 (ix2 r k) * x0 (ix2 k j)) := by
  unfold k1_pay1
  rw [select_apply, cmpf_apply, mulf_apply, broadcast_apply, broadcast_apply, shapeCast_self]
  simp only [matmul]
  rw [Cert.Lib.matmul_plain_apply dot_S512x4096_S4096x128_S512x128_1_0_0_1_n_n rfl rfl lhs_axis0 lhs_axis1 rhs_axis0 rhs_axis1,
    Ideal.cmpf_def, Ideal.ofBits_def, Ideal.ofBits_def, Ideal.ofBits_zero_f32]
  rfl

/-- The block form of the stored value: when the staged adjacency block is rows n·512 … n·512 + 511 of A and the staged
    features are L, the body's value at a block index is the layer's value at the array index that lies n·512 rows
    further down in the same column. -/
theorem pay_block (A : FVec Ideal S4096x4096 .f32) (L : FVec Ideal S4096x128 .f32)
    (x1 : Vec Ideal S512x4096 .f32) (x0 : Vec Ideal S4096x128 .f32) (n : Nat)
    (h1 : ∀ (r : Fin 512) (k : Fin 4096) (i : Fin 4096), i.val = n * 512 + 1 * r.val → x1 (ix2 r k) = A (ix2 i k))
    (h0 : ∀ (k : Fin 4096) (j : Fin 128), x0 (ix2 k j) = L (ix2 k j))
    (y : S512x128.Idx) (i : S4096x128.Idx) (hi0 : (i 0).val = n * 512 + 1 * (y 0).val) (hi1 : (i 1).val = (y 1).val) :
    k1_pay1 x1 x0 y = Cert.Spec.leakyMM A L i := by
  obtain ⟨r, j, rfl⟩ : ∃ (r : Fin 512) (j : Fin 128), y = ix2 r j := ⟨y 0, y 1, eq_ix2 y⟩
  obtain ⟨p, q, rfl⟩ : ∃ (p : Fin 4096) (q : Fin 128), i = ix2 p q := ⟨i 0, i 1, eq_ix2 i⟩
  obtain rfl : q = j := Fin.ext hi1
  rw [pay_apply, Cert.Spec.leakyMM_apply]
  unfold Cert.Spec.adjDot
  refine congrArg Cert.Spec.leaky (Finset.sum_congr rfl fun k _ => ?_)
  rw [h1 r k p hi0, h0 k q]

variable (V : (c : Dev nD) → (b : Ref sig .tc) → Buf (Elt Ideal) ((c : Thread nD τ).loc b))

/-- The printed index maps over the eight points: the features' window stays at block (0, 0); the adjacency window
    and the result window are both at block (t, 0). -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the layer's value of the region-entry contents of A and L. -/
theorem flushed_eq (c : Dev nD) (t : Fin cfg1.N) :
    (dat1 V c).flushed 2 t
      = ((cfg1.win 2).blk t).view.read (Elt Ideal) (Cert.Spec.leakyMM (V c main_arg1) (V c main_v3)) := by
  show (cfg1.win 2).cut (grid1.coords t) ((dat1 V c).after 2 t) = _
  rw [after1_2]
  unfold out1_2
  rw [View.canon_unit_zero zero_off]
  simp only [View.ld_unit_zero (S := S512x4096) zero_off, View.ld_unit_zero (S := S4096x128) zero_off]
  obtain ⟨e0, e1, e2, e3, e4, e5⟩ := idx_facts t
  funext y
  show k1_pay1 (iblk1 V c 1 t) (iblk1 V c 0 t) ((cfg1.win 2).xinj (grid1.coords t) y)
    = Cert.Spec.leakyMM (V c main_arg1) (V c main_v3) (((cfg1.win 2).blk t).view.emb y)
  refine pay_block (V c main_arg1) (V c main_v3) (iblk1 V c 1 t) (iblk1 V c 0 t) (win1_2.index t (0 : Fin 2)) ?_ ?_ _ _ ?_ ?_
  · intro r k i hi
    show V c main_arg1 (((cfg1.win 1).blk t).view.emb (ix2 r k)) = V c main_arg1 (ix2 i k)
    refine congrArg (V c main_arg1) (funext fun a => Fin.ext ?_)
    match a with
    | ⟨0, _⟩ => show win1_1.index t (0 : Fin 2) * 512 + 1 * r.val = i.val; omega
    | ⟨1, _⟩ => show win1_1.index t (1 : Fin 2) * 4096 + 1 * k.val = k.val; omega
  · intro k j
    show V c main_v3 (((cfg1.win 0).blk t).view.emb (ix2 k j)) = V c main_v3 (ix2 k j)
    refine congrArg (V c main_v3) (funext fun a => Fin.ext ?_)
    match a with
    | ⟨0, _⟩ => show win1_0.index t (0 : Fin 2) * 4096 + 1 * k.val = k.val; omega
    | ⟨1, _⟩ => show win1_0.index t (1 : Fin 2) * 128 + 1 * j.val = j.val; omega
  · show win1_2.index t (0 : Fin 2) * 512 + 1 * (y 0).val = win1_2.index t (0 : Fin 2) * 512 + 1 * (y 0).val
    rfl
  · show win1_2.index t (1 : Fin 2) * 128 + 1 * (y 1).val = (y 1).val
    omega

/-- An index of the result array lies in point t's block iff each coordinate lies in the block's range on its axis. -/
theorem mem_blk (t : Fin cfg1.N) (i : S4096x128.Idx) :
    i ∈ ((cfg1.win 2).blk t).view.set ↔ ∀ a : Fin 2, win1_2.index t a * S512x128.size a ≤ (i a).val
      ∧ (i a).val < win1_2.index t a * S512x128.size a + S512x128.size a := by
  show i ∈ ((View.whole main_v4).slice (win1_2.rect t)).set ↔ _
  rw [View.set_slice_whole, Rect.mem_set_unit]
  exact Iff.rfl

/-- The eight blocks tile the result: row r lies in the block of point r / 512. -/
theorem covered (i : S4096x128.Idx) :
    ∃ t : Fin cfg1.N, (cfg1.win 2).flush t = true ∧ i ∈ ((cfg1.win 2).blk t).view.set := by
  have h0 : (i 0).val < 4096 := idx2_lt0 i
  have h1 : (i 1).val < 128 := idx2_lt1 i
  have hN : (i 0).val / 512 < cfg1.N := by show (i 0).val / 512 < 8; omega
  obtain ⟨-, -, -, -, e4, e5⟩ := idx_facts ⟨(i 0).val / 512, hN⟩
  have e4' : win1_2.index ⟨(i 0).val / 512, hN⟩ (0 : Fin 2) = (i 0).val / 512 := e4
  refine ⟨⟨(i 0).val / 512, hN⟩, flush1_2 _, ?_⟩
  rw [mem_blk]
  intro a
  match a with
  | ⟨0, _⟩ =>
    show win1_2.index ⟨(i 0).val / 512, hN⟩ (0 : Fin 2) * 512 ≤ (i 0).val
      ∧ (i 0).val < win1_2.index ⟨(i 0).val / 512, hN⟩ (0 : Fin 2) * 512 + 512
    omega
  | ⟨1, _⟩ =>
    show win1_2.index ⟨(i 0).val / 512, hN⟩ (1 : Fin 2) * 128 ≤ (i 1).val
      ∧ (i 1).val < win1_2.index ⟨(i 0).val / 512, hN⟩ (1 : Fin 2) * 128 + 128
    omega

/-- The result array after the second region, from ANY contents `V` at the region's entry: the adjacency product of
    the entry contents of `main_arg1` (A) and `main_v3` (L), followed by the leaky rectifier. -/
theorem final1 (c : Dev nD) :
    (dat1 V c).arrAt 2 cfg1.N = Cert.Spec.leakyMM (V c main_arg1) (V c main_v3) :=
  (dat1 V c).arrAt_eq_of_cover 2 (Cert.Spec.leakyMM (V c main_arg1) (V c main_v3)) (fun t _ => flushed_eq V c t) covered

end Cert.KernelIdeal.Region1

end
-- ==== Proof.KernelValue.lean ====
/-
  The idealized kernel's result as one function of its six arguments. The host operations before the first region lay
  the bias, scale and shift vectors out as rows; the first region leaves its payload of those and of the features and
  weights; the second region multiplies by the adjacency matrix and applies the leaky rectifier.
-/
import proofs.«125105_g35983236006066_cont_8to1_b_995_4_alg».proof.Proof.Region0
import proofs.«125105_g35983236006066_cont_8to1_b_995_4_alg».proof.Proof.Region1
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The features the adjacency matrix multiplies, as the kernel computes them from the launch contents. -/
def kLin (c : Dev nD) : FVec Ideal S4096x128 .f32 :=
  k0_pay1 (m ((c.tc : Thread nD τ).loc main_arg0))
    (shapeCast S1x128 (m ((c.tc : Thread nD τ).loc main_arg4)) shapeCasts_S128_S1x128)
    (shapeCast S1x128 (m ((c.tc : Thread nD τ).loc main_arg5)) shapeCasts_S128_S1x128)
    (m ((c.tc : Thread nD τ).loc main_arg2))
    (shapeCast S1x128 (m ((c.tc : Thread nD τ).loc main_arg3)) shapeCasts_S128_S1x128)

/-! ## The contents at the first region's entry

Three reshapes run before the first region, each laying a vector of 128 entries out as a 1 × 128 row in a buffer of
its own. At the region's entry those three buffers hold the rows; the features, the adjacency matrix and the weights,
which no reshape writes, hold what they held at launch. -/

/-- The bias row: the bias vector (`main_arg3`) as a 1 × 128 row. -/
theorem entry_bias (c : Dev nD) :
    V1 m ρ c main_v0 = shapeCast S1x128 (m ((c.tc : Thread nD τ).loc main_arg3)) shapeCasts_S128_S1x128 := by
  show StableHlo.after hostOps0 (W0 m ρ c) (Proc.devRef .tc main_v0) = _
  after_results
  rfl

/-- The scale row: the scale vector (`main_arg4`) as a 1 × 128 row. -/
theorem entry_scale (c : Dev nD) :
    V1 m ρ c main_v1 = shapeCast S1x128 (m ((c.tc : Thread nD τ).loc main_arg4)) shapeCasts_S128_S1x128 := by
  show StableHlo.after hostOps0 (W0 m ρ c) (Proc.devRef .tc main_v1) = _
  after_results
  rfl

/-- The shift row: the shift vector (`main_arg5`) as a 1 × 128 row. -/
theorem entry_shift (c : Dev nD) :
    V1 m ρ c main_v2 = shapeCast S1x128 (m ((c.tc : Thread nD τ).loc main_arg5)) shapeCasts_S128_S1x128 := by
  show StableHlo.after hostOps0 (W0 m ρ c) (Proc.devRef .tc main_v2) = _
  after_results
  rfl

/-- The features are as launched. -/
theorem entry_features (c : Dev nD) : V1 m ρ c main_arg0 = m ((c.tc : Thread nD τ).loc main_arg0) := by
  show StableHlo.after hostOps0 (W0 m ρ c) (Proc.devRef .tc main_arg0) = _
  after_results

/-- The adjacency matrix is as launched. -/
theorem entry_adjacency (c : Dev nD) : V1 m ρ c main_arg1 = m ((c.tc : Thread nD τ).loc main_arg1) := by
  show StableHlo.after hostOps0 (W0 m ρ c) (Proc.devRef .tc main_arg1) = _
  after_results

/-- The weights are as launched. -/
theorem entry_weights (c : Dev nD) : V1 m ρ c main_arg2 = m ((c.tc : Thread nD τ).loc main_arg2) := by
  show StableHlo.after hostOps0 (W0 m ρ c) (Proc.devRef .tc main_arg2) = _
  after_results

/-! ## The contents at the second region's entry -/

/-- The first region writes none of the adjacency matrix: it is not one of that region's arrays. -/
theorem mid_adjacency (c : Dev nD) : V2 m ρ c main_arg1 = m ((c.tc : Thread nD τ).loc main_arg1) :=
  (W2_of_ne m ρ c main_arg1 (by decide)).trans (entry_adjacency m ρ c)

/-- The first region's result array holds its payload of the entry contents, which are the launch contents and the
    three rows. -/
theorem mid_features (c : Dev nD) : V2 m ρ c main_v3 = kLin m c := by
  have h : V2 m ρ c main_v3 = (dat0 (V1 m ρ) c).arrAt 5 cfg0.N := W2_arr m ρ c 5
  rw [h, Region0.final0 (V1 m ρ) c, entry_features, entry_scale, entry_shift, entry_weights, entry_bias]
  rfl

/-- The contents of the result array at the last boundary: the adjacency product of the launch contents of
    `main_arg1` with the first region's payload, followed by the leaky rectifier. -/
theorem result_eq (c : Dev nD) :
    W3 m ρ c (Proc.devRef .tc main_v4)
      = Cert.Spec.leakyMM (m ((c.tc : Thread nD τ).loc main_arg1)) (kLin m c) := by
  have h : W3 m ρ c (Proc.devRef .tc main_v4) = (dat1 (V2 m ρ) c).arrAt 2 cfg1.N := W3_arr m ρ c 2
  rw [h, Region1.final1 (V2 m ρ) c, mid_adjacency, mid_features]

end Cert.KernelIdeal.KValue

end
-- ==== Proof.RefSpec.lean ====
/-
  The reference's layer as staged functions of whole arrays, each stage the reference's own host operations in the
  order it applies them:

    * the row norm  ‖h_i‖ = sqrt (∑ₖ h (i, k)²)  and the row-normalised features  hn = h / max (‖h‖, ε₁);
    * the column mean  μ_k = (∑ᵢ x (i, k)) / 4096  and the centred features  x − μ;
    * the (biased) column variance, as jax's `var` spells it: the mean recomputed, the squares of the centred
      entries summed and divided by 4096 − ddof with ddof = 0, guarded by a select on 4096 − ddof > 0;
    * batch normalisation  (x − μ) / sqrt (var + ε₂) · γ + β;
    * the linear layer  y · Wᵀ + b;
    * the adjacency product and the leaky rectifier.

  `refOut` is their composition: what the reference's run leaves in its result.
-/
import proofs.«125105_g35983236006066_cont_8to1_b_995_4_alg».proof.Proof.Gen.ReferenceIdeal
import Idealize.ShloMosaic.PureOps.Ideal

noncomputable section

namespace Cert.ReferenceIdeal.RefValue

open Idealize.ShloMosaic Cert.ReferenceIdeal Cert.ReferenceIdeal.Facts₀

/-- The zero the sums start from. -/
abbrev zeroS : FVec Ideal S_ .f32 := constant S_ .f32 0x00000000#32

/-- The row norms, as a column: sqrt of the row sums of squares. -/
def refNorm (H : FVec Ideal S4096x128 .f32) : FVec Ideal S4096x1 .f32 :=
  Host.sqrt (broadcastInDim S4096x1 ![0] bcast_S4096_S4096x1_0
    (Host.reduceAdd (mulf H H) zeroS reducesTo_S4096x128_S4096_d1 h_S_))

/-- Each row divided by its norm, the norm kept at least ε₁ = 0x2B8CBCCC. -/
def refHn (H : FVec Ideal S4096x128 .f32) : FVec Ideal S4096x128 .f32 :=
  Host.divf H (broadcastInDim S4096x128 ![0, 1] bcast_S4096x1_S4096x128_0_1
    (maximumf (refNorm H) (broadcastInDim S4096x1 ![] bcast_S_S4096x1 (constant S_ .f32 0x2B8CBCCC#32))))

/-- The column means: column sums over 4096 = 0x45800000. -/
def refMean (X : FVec Ideal S4096x128 .f32) : FVec Ideal S128 .f32 :=
  Host.divf (Host.reduceAdd X zeroS reducesTo_S4096x128_S128_d0 h_S_)
    (broadcastInDim S128 ![] bcast_S_S128 (constant S_ .f32 0x45800000#32))

/-- The features minus their column means. -/
def refCenter (X : FVec Ideal S4096x128 .f32) : FVec Ideal S4096x128 .f32 :=
  subf X (broadcastInDim S4096x128 ![0, 1] bcast_S1x128_S4096x128_0_1
    (broadcastInDim S1x128 ![1] bcast_S128_S1x128_1 (refMean X)))

/-- The centred features as jax's `var` recomputes them: the column sums laid out as a row before the division. -/
def refVarCenter (X : FVec Ideal S4096x128 .f32) : FVec Ideal S4096x128 .f32 :=
  subf X (broadcastInDim S4096x128 ![0, 1] bcast_S1x128_S4096x128_0_1
    (Host.divf (broadcastInDim S1x128 ![1] bcast_S128_S1x128_1 (Host.reduceAdd X zeroS reducesTo_S4096x128_S128_d0 h_S_))
      (broadcastInDim S1x128 ![] bcast_S_S1x128 (constant S_ .f32 0x45800000#32))))

/-- The divisor of jax's `var`: 4096 − ddof, with ddof the integer 0 converted. -/
def refVarDenom : FVec Ideal S_ .f32 :=
  subf (constant S_ .f32 0x45800000#32) (sitofp .f32 (constantI S_ 32 0#32))

/-- The column variances from already centred features `Xc`: the column sums of squares over the divisor, guarded by
    the select on a positive divisor (the other branch a not-a-number pattern). -/
def refVarOf (Xc : FVec Ideal S4096x128 .f32) : FVec Ideal S128 .f32 :=
  select (broadcastInDim S128 ![] bcast_S_S128 (cmpf .ogt refVarDenom zeroS))
    (Host.divf (Host.reduceAdd (mulf Xc Xc) zeroS reducesTo_S4096x128_S128_d0 h_S_)
      (broadcastInDim S128 ![] bcast_S_S128 refVarDenom))
    (broadcastInDim S128 ![] bcast_S_S128 (id (constant S_ .f32 0x7FC00000#32)))

/-- jax's `var` over the rows. -/
def refVar (X : FVec Ideal S4096x128 .f32) : FVec Ideal S128 .f32 := refVarOf (refVarCenter X)

/-- A vector of 128 laid along every one of the 4096 rows. -/
def rows (v : FVec Ideal S128 .f32) : FVec Ideal S4096x128 .f32 :=
  broadcastInDim S4096x128 ![0, 1] bcast_S1x128_S4096x128_0_1 (broadcastInDim S1x128 ![1] bcast_S128_S1x128_1 v)

/-- Batch normalisation with ε₂ = 0x3727C5AC, scale γ and shift β. -/
def refBn (X : FVec Ideal S4096x128 .f32) (γ β : FVec Ideal S128 .f32) : FVec Ideal S4096x128 .f32 :=
  addf (mulf (Host.divf (refCenter X)
      (rows (Host.sqrt (addf (refVar X) (broadcastInDim S128 ![] bcast_S_S128 (constant S_ .f32 0x3727C5AC#32))))))
    (rows γ)) (rows β)

/-- The linear layer: the product with the transposed weights, plus the bias along the rows. -/
def refLinear (Y : FVec Ideal S4096x128 .f32) (W : FVec Ideal S128x128 .f32) (b : FVec Ideal S128 .f32) : FVec Ideal S4096x128 .f32 :=
  addf (Host.dotGeneral dot_S4096x128_S128x128_S4096x128_1_0_0_1_n_n none Y
      (transpose S128x128 [1, 0] W transposes_S128x128_S128x128_1_0))
    (rows b)

/-- The features the adjacency matrix multiplies. -/
def refLin (H : FVec Ideal S4096x128 .f32) (W : FVec Ideal S128x128 .f32) (b γ β : FVec Ideal S128 .f32) : FVec Ideal S4096x128 .f32 :=
  refLinear (refBn (refHn H) γ β) W b

/-- The adjacency product followed by the leaky rectifier of slope 0x3C23D70A. -/
def refSpmm (A : FVec Ideal S4096x4096 .f32) (L : FVec Ideal S4096x128 .f32) : FVec Ideal S4096x128 .f32 :=
  let D : FVec Ideal S4096x128 .f32 := Host.dotGeneral dot_S4096x4096_S4096x128_S4096x128_1_0_0_1_n_n none A L
  select (cmpf .oge D (broadcastInDim S4096x128 ![] bcast_S_S4096x128 zeroS)) D
    (mulf (broadcastInDim S4096x128 ![] bcast_S_S4096x128 (constant S_ .f32 0x3C23D70A#32)) D)

/-- What the reference computes from its six arguments. -/
def refOut (H : FVec Ideal S4096x128 .f32) (A : FVec Ideal S4096x4096 .f32) (W : FVec Ideal S128x128 .f32)
    (b γ β : FVec Ideal S128 .f32) : FVec Ideal S4096x128 .f32 :=
  refSpmm A (refLin H W b γ β)

end Cert.ReferenceIdeal.RefValue

end
-- ==== Proof.RefRun.lean ====
/-
  The reference's run read back. Its @main is a straight line of host operations once the three functions jax outlined
  (the row norm, the variance with its inner select, the final select) are opened at their calls; the run of such a
  line ends with every buffer at the fold of the operations over the launch contents, and the result buffer's fold is
  the staged composition `refOut` of the six arguments.
-/
import proofs.«125105_g35983236006066_cont_8to1_b_995_4_alg».proof.Proof.RefSpec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

section Line

variable {F : FTy → Type} [FloatOps F]

/-- @main's sixty-seven operations in order, the calls opened where they stand. The row norm is five (the squares,
    the zero, the row sums, their layout as a column, the square root) into the first call's buffers; then the
    clamp of the norm and the division; the column means; the integer zero that is the variance's `ddof`; the
    variance is nineteen of its own (the column sums laid as a row and divided, the centred entries and their
    squares, the divisor 4096 − ddof, the sums of squares over it, the test on a positive divisor, the
    not-a-number pattern) and its inner select's three (the pattern converted to its own type, broadcast, the
    select), into the second call's buffers and the record nested in it; then batch normalisation, the linear
    layer, the adjacency product, the comparison with zero and the scaled product; the final select is one, into
    the third call's buffer, which is the result. -/
abbrev ops : List (HloOp τ sig (Elt F)) :=
  [ -- the row norm
    TRef.binary (.of main_arg0) (.of main_arg0) main_call0.v0 mulf,
    TRef.nullary main_call0.cst (constant S_ .f32 0x00000000#32),
    TRef.binary main_call0.v0 main_call0.cst main_call0.v1 (fun x v => Host.reduceAdd x v reducesTo_S4096x128_S4096_d1 h_S_),
    TRef.unary main_call0.v1 main_call0.v2 (broadcastInDim S4096x1 ![0] bcast_S4096_S4096x1_0),
    TRef.unary main_call0.v2 main_call0.v3 Host.sqrt,
    -- the rows over their clamped norms
    nullary main_cst (constant S_ .f32 0x2B8CBCCC#32),
    unary main_cst main_v1 (broadcastInDim S4096x1 ![] bcast_S_S4096x1),
    binary main_v0 main_v1 main_v2 maximumf,
    unary main_v2 main_v3 (broadcastInDim S4096x128 ![0, 1] bcast_S4096x1_S4096x128_0_1),
    binary main_arg0 main_v3 main_v4 Host.divf,
    -- the column means
    nullary main_cst_0 (constant S_ .f32 0x00000000#32),
    binary main_v4 main_cst_0 main_v5 (fun x v => Host.reduceAdd x v reducesTo_S4096x128_S128_d0 h_S_),
    nullary main_cst_1 (constant S_ .f32 0x45800000#32),
    unary main_cst_1 main_v6 (broadcastInDim S128 ![] bcast_S_S128),
    binary main_v5 main_v6 main_v7 Host.divf,
    nullary main_c (constantI S_ 32 0#32),
    -- the column variances
    TRef.nullary main_call1.cst (constant S_ .f32 0x00000000#32),
    TRef.binary (.of main_v4) main_call1.cst main_call1.v0 (fun x v => Host.reduceAdd x v reducesTo_S4096x128_S128_d0 h_S_),
    TRef.unary main_call1.v0 main_call1.v1 (broadcastInDim S1x128 ![1] bcast_S128_S1x128_1),
    TRef.nullary main_call1.cst_0 (constant S_ .f32 0x45800000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S4096x128 ![0, 1] bcast_S1x128_S4096x128_0_1),
    TRef.binary (.of main_v4) main_call1.v4 main_call1.v5 subf,
    TRef.binary main_call1.v5 main_call1.v5 main_call1.v6 mulf,
    TRef.unary (.of main_c) main_call1.v7 (sitofp .f32),
    TRef.nullary main_call1.cst_1 (constant S_ .f32 0x45800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S4096x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    -- batch normalisation
    unary main_v7 main_v9 (broadcastInDim S1x128 ![1] bcast_S128_S1x128_1),
    unary main_v9 main_v10 (broadcastInDim S4096x128 ![0, 1] bcast_S1x128_S4096x128_0_1),
    binary main_v4 main_v10 main_v11 subf,
    nullary main_cst_2 (constant S_ .f32 0x3727C5AC#32),
    unary main_cst_2 main_v12 (broadcastInDim S128 ![] bcast_S_S128),
    binary main_v8 main_v12 main_v13 addf,
    unary main_v13 main_v14 Host.sqrt,
    unary main_v14 main_v15 (broadcastInDim S1x128 ![1] bcast_S128_S1x128_1),
    unary main_v15 main_v16 (broadcastInDim S4096x128 ![0, 1] bcast_S1x128_S4096x128_0_1),
    binary main_v11 main_v16 main_v17 Host.divf,
    unary main_arg4 main_v18 (broadcastInDim S1x128 ![1] bcast_S128_S1x128_1),
    unary main_v18 main_v19 (broadcastInDim S4096x128 ![0, 1] bcast_S1x128_S4096x128_0_1),
    binary main_v17 main_v19 main_v20 mulf,
    unary main_arg5 main_v21 (broadcastInDim S1x128 ![1] bcast_S128_S1x128_1),
    unary main_v21 main_v22 (broadcastInDim S4096x128 ![0, 1] bcast_S1x128_S4096x128_0_1),
    binary main_v20 main_v22 main_v23 addf,
    -- the linear layer
    unary main_arg2 main_v24 (transpose S128x128 [1, 0] · transposes_S128x128_S128x128_1_0),
    binary main_v23 main_v24 main_v25 (fun l r => Host.dotGeneral dot_S4096x128_S128x128_S4096x128_1_0_0_1_n_n none l r),
    unary main_arg3 main_v26 (broadcastInDim S1x128 ![1] bcast_S128_S1x128_1),
    unary main_v26 main_v27 (broadcastInDim S4096x128 ![0, 1] bcast_S1x128_S4096x128_0_1),
    binary main_v25 main_v27 main_v28 addf,
    -- the adjacency product and the leaky rectifier
    binary main_arg1 main_v28 main_v29 (fun l r => Host.dotGeneral dot_S4096x4096_S4096x128_S4096x128_1_0_0_1_n_n none l r),
    nullary main_cst_3 (constant S_ .f32 0x00000000#32),
    unary main_cst_3 main_v30 (broadcastInDim S4096x128 ![] bcast_S_S4096x128),
    binary main_v29 main_v30 main_v31 (cmpf .oge),
    nullary main_cst_4 (constant S_ .f32 0x3C23D70A#32),
    unary main_cst_4 main_v32 (broadcastInDim S4096x128 ![] bcast_S_S4096x128),
    binary main_v32 main_v29 main_v33 mulf,
    TRef.ternary (.of main_v31) (.of main_v29) (.of main_v33) main_call2.v0 select ]

-- sixty-seven binds re-associated: the rewrite under the chain recurses once per statement
set_option maxRecDepth 2048 in
/-- @main is that straight line: the functions' definitions unfolded at their calls and the records at their
    fields, both sides are one chain of steps once sequencing is reassociated. -/
theorem main_eq (c : Dev nD) : main (F := F) c = seq ops := by
  simp only [main, fn_norm.body, fn_var.body, fn_where.body, fn_where_0.body, seq, bind_assoc, pure_bind]
  rfl

/-- No operation of the line writes an argument's buffer: the fold leaves each at its launch contents. -/
theorem arg0_eq (V : Valuation τ sig (Elt F)) :
    after (ops (F := F)) V (main_arg0 : DevRef τ sig) = V (main_arg0 : DevRef τ sig) := by
  after_results_simp

theorem arg1_eq (V : Valuation τ sig (Elt F)) :
    after (ops (F := F)) V (main_arg1 : DevRef τ sig) = V (main_arg1 : DevRef τ sig) := by
  after_results_simp

theorem arg2_eq (V : Valuation τ sig (Elt F)) :
    after (ops (F := F)) V (main_arg2 : DevRef τ sig) = V (main_arg2 : DevRef τ sig) := by
  after_results_simp

theorem arg3_eq (V : Valuation τ sig (Elt F)) :
    after (ops (F := F)) V (main_arg3 : DevRef τ sig) = V (main_arg3 : DevRef τ sig) := by
  after_results_simp

theorem arg4_eq (V : Valuation τ sig (Elt F)) :
    after (ops (F := F)) V (main_arg4 : DevRef τ sig) = V (main_arg4 : DevRef τ sig) := by
  after_results_simp

theorem arg5_eq (V : Valuation τ sig (Elt F)) :
    after (ops (F := F)) V (main_arg5 : DevRef τ sig) = V (main_arg5 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers of the signature only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Line

attribute [local irreducible] Host.reduceAdd Host.sqrt Host.divf in
set_option maxRecDepth 8192 in
/-- The fold at the result buffer is `refOut` of the arguments' contents. Each operation's result at its own
    buffer is its function of its operands' contents, and at any other buffer what was there; rewritten through
    the whole line, the result buffer holds one term over the six arguments, and the stages of `refOut` unfold to
    that same term: the row norm's five operations are `refNorm`, the clamp and division `refHn`, the means
    `refMean`, the variance call's twenty-two `refVar` (its divisor `refVarDenom` met twice, under the quotient
    and under the test), the normalisation `refBn`, the product with the transposed weights and the bias
    `refLinear`, the adjacency product with the last select `refSpmm`. The sums and the elementwise square root and
    quotient stay folded meanwhile: the equation never looks inside them. -/
theorem out_eq (V : Valuation τ sig (Elt Ideal)) :
    after (ops (F := Ideal)) V (main_v34 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- Every weakly fair execution of the reference terminates with its result at `refOut` of the launch contents of the
    six arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c main_v34).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _)⟩)
    (run_main (F := Ideal) m ρ)

end Cert.ReferenceIdeal.RefValue

end
-- ==== Proof.Linear.lean ====
/-
  The two matrix products, the kernel's spelling against the reference's.

  * The linear layer: the kernel contracts the second axis of the features with the second axis of the weights and adds
    the bias row; the reference transposes the weights, contracts with their first axis, and adds the bias along the
    rows. Both are  ∑ₖ y (i, k) · w (j, k) + b j.
  * The adjacency stage: the reference's one matrix product followed by its select is, entry by entry, the leaky
    rectifier of  ∑ₖ A (i, k) · L (k, j).

  Two general readings come first: a product contracting the second axis of both operands, read at (p, j), is
  ∑ₖ lhs (p, k) · rhs (j, k); the host's plain product, read at (p, j), is  ∑ₖ lhs (p, k) · rhs (k, j). Each takes the
  four axis facts of its record of dimension numbers as hypotheses; the three records' facts follow, one lemma each.
-/
import proofs.«125105_g35983236006066_cont_8to1_b_995_4_alg».proof.Proof.Gen.KernelIdeal.Skeleton
import proofs.«125105_g35983236006066_cont_8to1_b_995_4_alg».proof.Proof.RefSpec
import proofs.«125105_g35983236006066_cont_8to1_b_995_4_alg».proof.Proof.Spec
import proofs.«125105_g35983236006066_cont_8to1_b_995_4_alg».proof.Proof.LibPlainDot
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.Lib

open Idealize.ShloMosaic Idealize.ShloMosaic.ValueIdx

/-- A matrix product of an [M, K] operand with an [N, K] operand, the second axis of both contracted, into the zero
    accumulator, read at (p, j): ∑ₖ lhs (p, k) · rhs (j, k). -/
theorem matmul_nt_apply {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (i 1).val) (hr1 : ∀ i q, (d.rhsIdx i q 1).val = (q ⟨0, by omega⟩).val)
    (prec : Option ContractPrecision) (lhs : FVec Ideal ⟨2, ![M, K]⟩ φ₁) (rhs : FVec Ideal ⟨2, ![N, K]⟩ φ₂)
    (p : Fin M) (j : Fin N) :
    FloatOps.matmul d prec lhs rhs (constant ⟨2, ![M, N]⟩ .f32 0x00000000#32) (ix2 p j)
      = ∑ k : Fin K, lhs (ix2 p k) * rhs (ix2 j k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 j k := funext fun a => Fin.ext (by
    match a with
    | ⟨0, _⟩ => exact hr0 _ _
    | ⟨1, _⟩ => exact (hr1 _ _).trans hk)
  rw [el, er]

/-- The host's plain matrix product of an [M, K] operand with a [K, N] operand, read at (p, j):
    ∑ₖ lhs (p, k) · rhs (k, j). -/
theorem dotGeneral_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    Host.dotGeneral d prec lhs rhs (ix2 p j) = ∑ k : Fin K, lhs (ix2 p k) * rhs (ix2 k j) := by
  rw [← matmul_zero_eq_dotGeneral]
  exact matmul_plain_apply d hr hs hl0 hl1 hr0 hr1 prec lhs rhs p j

end Cert.Lib

namespace Cert.Bridge

open Idealize.ShloMosaic Idealize.ShloMosaic.ValueIdx
open Cert.KernelIdeal Cert.KernelIdeal.Facts₀

/-! ## The axis facts of the three records -/

section KernelRecord

theorem kdot_rank : dot_S4096x128_S128x128_S4096x128_1_1_0_0_n_n.contr.rank = 1 := rfl
theorem kdot_size : dot_S4096x128_S128x128_S4096x128_1_1_0_0_n_n.contr.size ⟨0, by rw [kdot_rank]; omega⟩ = 128 := rfl
theorem kdot_lhs_0 (i : S4096x128.Idx) (q : dot_S4096x128_S128x128_S4096x128_1_1_0_0_n_n.contr.Idx) :
    (dot_S4096x128_S128x128_S4096x128_1_1_0_0_n_n.lhsIdx i q 0).val = (i 0).val := rfl
theorem kdot_lhs_1 (i : S4096x128.Idx) (q : dot_S4096x128_S128x128_S4096x128_1_1_0_0_n_n.contr.Idx) :
    (dot_S4096x128_S128x128_S4096x128_1_1_0_0_n_n.lhsIdx i q 1).val = (q ⟨0, by rw [kdot_rank]; omega⟩).val :=
  dot_S4096x128_S128x128_S4096x128_1_1_0_0_n_n.lhsIdx_val_of_single rfl i q
theorem kdot_rhs_0 (i : S4096x128.Idx) (q : dot_S4096x128_S128x128_S4096x128_1_1_0_0_n_n.contr.Idx) :
    (dot_S4096x128_S128x128_S4096x128_1_1_0_0_n_n.rhsIdx i q 0).val = (i 1).val := rfl
theorem kdot_rhs_1 (i : S4096x128.Idx) (q : dot_S4096x128_S128x128_S4096x128_1_1_0_0_n_n.contr.Idx) :
    (dot_S4096x128_S128x128_S4096x128_1_1_0_0_n_n.rhsIdx i q 1).val = (q ⟨0, by rw [kdot_rank]; omega⟩).val :=
  dot_S4096x128_S128x128_S4096x128_1_1_0_0_n_n.rhsIdx_val_of_single rfl i q

end KernelRecord

section ReferenceRecords

theorem rlin_rank : Cert.ReferenceIdeal.dot_S4096x128_S128x128_S4096x128_1_0_0_1_n_n.contr.rank = 1 := rfl
theorem rlin_size :
    Cert.ReferenceIdeal.dot_S4096x128_S128x128_S4096x128_1_0_0_1_n_n.contr.size ⟨0, by rw [rlin_rank]; omega⟩ = 128 := rfl
theorem rlin_lhs_0 (i : Cert.ReferenceIdeal.S4096x128.Idx)
    (q : Cert.ReferenceIdeal.dot_S4096x128_S128x128_S4096x128_1_0_0_1_n_n.contr.Idx) :
    (Cert.ReferenceIdeal.dot_S4096x128_S128x128_S4096x128_1_0_0_1_n_n.lhsIdx i q 0).val = (i 0).val := rfl
theorem rlin_lhs_1 (i : Cert.ReferenceIdeal.S4096x128.Idx)
    (q : Cert.ReferenceIdeal.dot_S4096x128_S128x128_S4096x128_1_0_0_1_n_n.contr.Idx) :
    (Cert.ReferenceIdeal.dot_S4096x128_S128x128_S4096x128_1_0_0_1_n_n.lhsIdx i q 1).val
      = (q ⟨0, by rw [rlin_rank]; omega⟩).val :=
  Cert.ReferenceIdeal.dot_S4096x128_S128x128_S4096x128_1_0_0_1_n_n.lhsIdx_val_of_single rfl i q
theorem rlin_rhs_0 (i : Cert.ReferenceIdeal.S4096x128.Idx)
    (q : Cert.ReferenceIdeal.dot_S4096x128_S128x128_S4096x128_1_0_0_1_n_n.contr.Idx) :
    (Cert.ReferenceIdeal.dot_S4096x128_S128x128_S4096x128_1_0_0_1_n_n.rhsIdx i q 0).val
      = (q ⟨0, by rw [rlin_rank]; omega⟩).val :=
  Cert.ReferenceIdeal.dot_S4096x128_S128x128_S4096x128_1_0_0_1_n_n.rhsIdx_val_of_single rfl i q
theorem rlin_rhs_1 (i : Cert.ReferenceIdeal.S4096x128.Idx)
    (q : Cert.ReferenceIdeal.dot_S4096x128_S128x128_S4096x128_1_0_0_1_n_n.contr.Idx) :
    (Cert.ReferenceIdeal.dot_S4096x128_S128x128_S4096x128_1_0_0_1_n_n.rhsIdx i q 1).val = (i 1).val := rfl

theorem radj_rank : Cert.ReferenceIdeal.dot_S4096x4096_S4096x128_S4096x128_1_0_0_1_n_n.contr.rank = 1 := rfl
theorem radj_size :
    Cert.ReferenceIdeal.dot_S4096x4096_S4096x128_S4096x128_1_0_0_1_n_n.contr.size ⟨0, by rw [radj_rank]; omega⟩ = 4096 := rfl
theorem radj_lhs_0 (i : Cert.ReferenceIdeal.S4096x128.Idx)
    (q : Cert.ReferenceIdeal.dot_S4096x4096_S4096x128_S4096x128_1_0_0_1_n_n.contr.Idx) :
    (Cert.ReferenceIdeal.dot_S4096x4096_S4096x128_S4096x128_1_0_0_1_n_n.lhsIdx i q 0).val = (i 0).val := rfl
theorem radj_lhs_1 (i : Cert.ReferenceIdeal.S4096x128.Idx)
    (q : Cert.ReferenceIdeal.dot_S4096x4096_S4096x128_S4096x128_1_0_0_1_n_n.contr.Idx) :
    (Cert.ReferenceIdeal.dot_S4096x4096_S4096x128_S4096x128_1_0_0_1_n_n.lhsIdx i q 1).val
      = (q ⟨0, by rw [radj_rank]; omega⟩).val :=
  Cert.ReferenceIdeal.dot_S4096x4096_S4096x128_S4096x128_1_0_0_1_n_n.lhsIdx_val_of_single rfl i q
theorem radj_rhs_0 (i : Cert.ReferenceIdeal.S4096x128.Idx)
    (q : Cert.ReferenceIdeal.dot_S4096x4096_S4096x128_S4096x128_1_0_0_1_n_n.contr.Idx) :
    (Cert.ReferenceIdeal.dot_S4096x4096_S4096x128_S4096x128_1_0_0_1_n_n.rhsIdx i q 0).val
      = (q ⟨0, by rw [radj_rank]; omega⟩).val :=
  Cert.ReferenceIdeal.dot_S4096x4096_S4096x128_S4096x128_1_0_0_1_n_n.rhsIdx_val_of_single rfl i q
theorem radj_rhs_1 (i : Cert.ReferenceIdeal.S4096x128.Idx)
    (q : Cert.ReferenceIdeal.dot_S4096x4096_S4096x128_S4096x128_1_0_0_1_n_n.contr.Idx) :
    (Cert.ReferenceIdeal.dot_S4096x4096_S4096x128_S4096x128_1_0_0_1_n_n.rhsIdx i q 1).val = (i 1).val := rfl

end ReferenceRecords

/-! ## The bias row, the two spellings -/

/-- The kernel's bias row laid down the rows, read at (i, j), is the bias at j. -/
theorem kernelBias_apply (b : FVec Ideal S128 .f32) (i : Fin 4096) (j : Fin 128) :
    broadcastTo S4096x128 (shapeCast S1x128 (shapeCast S1x128 b shapeCasts_S128_S1x128) shapeCasts_S1x128_S1x128)
        broadcasts_S1x128_S4096x128 (ix2 i j) = b (ix1 j) := by
  rw [shapeCast_self]
  exact (broadcastTo_1b_ab_apply _ _ i j).trans (shapeCast_a_1a_apply b _ 0 j)

/-- The reference's bias along the rows, read at (i, j), is the bias at j. -/
theorem rows_apply (b : FVec Ideal S128 .f32) (i : Fin 4096) (j : Fin 128) :
    Cert.ReferenceIdeal.RefValue.rows b (ix2 i j) = b (ix1 j) := by
  unfold Cert.ReferenceIdeal.RefValue.rows
  refine (broadcastInDim_oneRow_apply _ _ i j).trans ?_
  refine broadcastInDim_apply ![1] _ b (ix2 (0 : Fin 1) j) (ix1 j) fun a => ?_
  match a with
  | ⟨0, _⟩ => rfl

/-- The linear layer: the kernel's product against the second axis of the weights plus the bias row laid down the
    rows, and the reference's product with the transposed weights plus the bias along the rows, are one array. -/
theorem linear_eq (Y : FVec Ideal S4096x128 .f32) (W : FVec Ideal S128x128 .f32) (b : FVec Ideal S128 .f32) :
    addf (matmul dot_S4096x128_S128x128_S4096x128_1_1_0_0_n_n none Y W (constant S4096x128 .f32 0x00000000#32))
        (broadcastTo S4096x128 (shapeCast S1x128 (shapeCast S1x128 b shapeCasts_S128_S1x128) shapeCasts_S1x128_S1x128)
          broadcasts_S1x128_S4096x128)
      = Cert.ReferenceIdeal.RefValue.refLinear Y W b := by
  funext idx
  obtain ⟨i, j, rfl⟩ : ∃ (i : Fin 4096) (j : Fin 128), idx = ix2 i j := ⟨idx 0, idx 1, eq_ix2 idx⟩
  unfold Cert.ReferenceIdeal.RefValue.refLinear
  rw [addf_apply, addf_apply, kernelBias_apply, rows_apply]
  congr 1
  refine (Cert.Lib.matmul_nt_apply dot_S4096x128_S128x128_S4096x128_1_1_0_0_n_n kdot_rank kdot_size
    kdot_lhs_0 kdot_lhs_1 kdot_rhs_0 kdot_rhs_1 none Y W i j).trans ?_
  refine Eq.trans ?_ (Cert.Lib.dotGeneral_plain_apply Cert.ReferenceIdeal.dot_S4096x128_S128x128_S4096x128_1_0_0_1_n_n
    rlin_rank rlin_size rlin_lhs_0 rlin_lhs_1 rlin_rhs_0 rlin_rhs_1 none Y _ i j).symm
  refine Finset.sum_congr rfl fun k _ => ?_
  rw [transpose_ix2_apply]

/-- The adjacency stage of the reference is the leaky rectifier of the adjacency product, entry by entry. -/
theorem spmm_eq (A : FVec Ideal S4096x4096 .f32) (L : FVec Ideal S4096x128 .f32) :
    Cert.ReferenceIdeal.RefValue.refSpmm A L = Cert.Spec.leakyMM A L := by
  funext idx
  obtain ⟨i, j, rfl⟩ : ∃ (i : Fin 4096) (j : Fin 128), idx = ix2 i j := ⟨idx 0, idx 1, eq_ix2 idx⟩
  rw [Cert.Spec.leakyMM_apply]
  unfold Cert.ReferenceIdeal.RefValue.refSpmm Cert.ReferenceIdeal.RefValue.zeroS Cert.Spec.leaky Cert.Spec.adjDot
  dsimp only
  rw [select_apply, cmpf_apply, mulf_apply, broadcastInDim_scalar_apply, broadcastInDim_scalar_apply,
    Cert.Lib.dotGeneral_plain_apply Cert.ReferenceIdeal.dot_S4096x4096_S4096x128_S4096x128_1_0_0_1_n_n
      radj_rank radj_size radj_lhs_0 radj_lhs_1 radj_rhs_0 radj_rhs_1 none A L i j,
    constant_apply, constant_apply, Ideal.cmpf_def, Ideal.ofBits_zero_f32]

end Cert.Bridge

end
-- ==== Proof.LibLayoutVsHost.lean ====
/-
  A kernel's layout operations against the host's, as whole arrays, for any element type and any extents:

  * `shapeCast_col_eq`  — a vector of n entries recast as a column [n, 1] is the host's broadcast of it along axis 0;
  * `shapeCast_row_eq`  — the vector recast as a row [1, n] is the host's broadcast of it along axis 1;
  * `broadcastTo_oneRow_eq` — a row [1, n] repeated down m rows is the host's broadcast of it along both axes;
  * `broadcastTo_oneCol_eq` — a column [m, 1] repeated along n columns is the host's broadcast of it along both axes.

  Each side reads the operand at the same entry: the coordinate along the operand's long axis, 0 along its unit axis.
-/
import Idealize.ShloMosaic.Lib.Pipeline.Value
import Idealize.ShloMosaic.Lib.ValueIdx
import Idealize.ShloMosaic.Lib.ValueLayout
import Idealize.ShloMosaic.Lib.KernelVsHost

namespace Cert.LibLayout

open Idealize.ShloMosaic Idealize.ShloMosaic.ValueIdx

variable {α : Type}

/-- A vector recast as a column is its broadcast along axis 0: both read, at (p, 0), the vector at p. -/
theorem shapeCast_col_eq {n : ℕ} (x : (⟨1, ![n]⟩ : Shape).Idx → α) (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have hu : (i 1).val < 1 := (i 1).isLt
  have e2 := shapeCast_apply x h i (ix1 (i 0 : Fin n)) (by
    rw [Shape.rowMajor_val_one, Shape.rowMajor_val_two]; show (i 0).val = (i 0).val * 1 + (i 1).val; omega)
  have e3 := broadcastInDim_apply ![0] hd x i (ix1 (i 0 : Fin n)) (by
    intro a
    match a with
    | ⟨0, _⟩ =>
      show (i 0).val = if n = 1 then 0 else (i 0).val
      split
      · have := (i 0).isLt; have e : (i 0).val < n := this; omega
      · rfl)
  exact e2.trans e3.symm

/-- A vector recast as a row is its broadcast along axis 1: both read, at (0, q), the vector at q. -/
theorem shapeCast_row_eq {n : ℕ} (x : (⟨1, ![n]⟩ : Shape).Idx → α) (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have hu : (i 0).val < 1 := (i 0).isLt
  have e2 := shapeCast_apply x h i (ix1 (i 1 : Fin n)) (by
    rw [Shape.rowMajor_val_one, Shape.rowMajor_val_two]; show (i 1).val = (i 0).val * n + (i 1).val
    have h0 : (i 0).val = 0 := by omega
    rw [h0, Nat.zero_mul, Nat.zero_add])
  have e3 := broadcastInDim_apply ![1] hd x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

/-- A row repeated down m rows: the kernel's broadcast and the host's along both axes read the row at (0, t). -/
theorem broadcastTo_oneRow_eq {m n : ℕ} (y : (⟨2, ![1, n]⟩ : Shape).Idx → α)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ y hb = broadcastInDim ⟨2, ![m, n]⟩ ![0, 1] hd y := by
  funext i
  obtain ⟨r, t, rfl⟩ : ∃ (r : Fin m) (t : Fin n), i = ix2 r t := ⟨i 0, i 1, eq_ix2 i⟩
  rw [broadcastTo_1b_ab_apply, broadcastInDim_oneRow_apply]

/-- A column repeated along n columns: the kernel's broadcast and the host's along both axes read the column at (r, 0). -/
theorem broadcastTo_oneCol_eq {m n : ℕ} (y : (⟨2, ![m, 1]⟩ : Shape).Idx → α)
    (hb : (⟨2, ![m, 1]⟩ : Shape).Broadcasts ⟨2, ![m, n]⟩)
    (hd : (⟨2, ![m, 1]⟩ : Shape).BroadcastsInDim ⟨2, ![m, n]⟩ ![0, 1]) :
    broadcastTo ⟨2, ![m, n]⟩ y hb = broadcastInDim ⟨2, ![m, n]⟩ ![0, 1] hd y := by
  funext i
  obtain ⟨r, t, rfl⟩ : ∃ (r : Fin m) (t : Fin n), i = ix2 r t := ⟨i 0, i 1, eq_ix2 i⟩
  have e1 := broadcastTo_apply y hb (ix2 r t) (ix2 r (0 : Fin 1)) (by
    intro a
    match a with
    | ⟨0, _⟩ =>
      show r.val = if m = 1 then 0 else r.val
      split
      · have := r.isLt; omega
      · rfl
    | ⟨1, _⟩ => rfl)
  have e3 := broadcastInDim_apply ![0, 1] hd y (ix2 r t) (ix2 r (0 : Fin 1)) (by
    intro a
    match a with
    | ⟨0, _⟩ =>
      show r.val = if m = 1 then 0 else r.val
      split
      · have := r.isLt; omega
      · rfl
    | ⟨1, _⟩ => rfl)
  exact e1.trans e3.symm

end Cert.LibLayout
-- ==== Proof.Consts.lean ====
/-
  The two single-precision constants whose VALUES the argument uses, as the extended reals their bit patterns denote:
  the row count 4096 (0x45800000), and the variance's ε₂ (0x3727C5AC = 10995116 · 2⁻⁴⁰, a positive real). The other
  literals (ε₁ of the row norm, the rectifier's slope) occur as the same pattern on both sides and are never evaluated.
-/
import Idealize.ShloMosaic.PureOps.Ideal

noncomputable section

namespace Cert.Consts

open Idealize.ShloMosaic

/-- 0x45800000 denotes the real 4096. -/
theorem ofBits_4096 : Ideal.ofBits .f32 0x45800000#32 = ((4096 : ℝ) : EReal) := by
  simp [Ideal.ofBits, Ideal.ieee, -EReal.coe_mul]; norm_num

/-- 0x3727C5AC denotes a positive real. -/
theorem ofBits_eps_pos : ∃ r : ℝ, 0 < r ∧ Ideal.ofBits .f32 0x3727C5AC#32 = (r : EReal) := by
  refine ⟨10995116 * (2 : ℝ) ^ (-40 : ℤ), by positivity, ?_⟩
  simp [Ideal.ofBits, Ideal.ieee, -EReal.coe_mul]

end Cert.Consts

end
-- ==== Proof.Prologue.lean ====
/-
  The first region's payload is the reference's features, as whole arrays.

  Write h for the input features (4096 × 128), ε₁, ε₂ for the two small constants, n = 4096.
    * row normalisation   hn (i, k) = h (i, k) / max (sqrt (∑ₖ' h (i, k')²), ε₁);
    * centring            xc (i, k) = hn (i, k) − (∑ᵢ' hn (i', k)) / n;
    * scaling             the kernel multiplies by  rsqrt (v_k + ε₂),  the reference divides by  sqrt (v_k + ε₂),
                          where  v_k = (∑ᵢ xc (i, k)²) / n;
    * scale, shift, and the linear layer (module Linear).
  The kernel and the reference spell every stage but the scaling with the same operations up to layout (a shape cast
  against a broadcast along an axis, a vector sum against the host's reduce), so those stages are equal as whole arrays
  by the layout lemmas. The scaling is where a law is used:  x · rsqrt v = x / sqrt v  holds on the extended reals
  exactly when v is a positive real or +∞ — and here v = (0 + ∑ᵢ xc²) / n + ε₂ ≥ ε₂ > 0 because a square of an extended
  real is never negative. No finiteness of the inputs is needed. The reference's variance divides by n − 0 (the integer
  0 converted) under a select on n − 0 > 0, which is the plain division by n.
-/
import proofs.«125105_g35983236006066_cont_8to1_b_995_4_alg».proof.Proof.Gen.KernelIdeal.Skeleton
import proofs.«125105_g35983236006066_cont_8to1_b_995_4_alg».proof.Proof.RefSpec
import proofs.«125105_g35983236006066_cont_8to1_b_995_4_alg».proof.Proof.Linear
import proofs.«125105_g35983236006066_cont_8to1_b_995_4_alg».proof.Proof.LibLayoutVsHost
import proofs.«125105_g35983236006066_cont_8to1_b_995_4_alg».proof.Proof.Consts
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.Bridge

open Idealize.ShloMosaic Idealize.ShloMosaic.ValueIdx
open Cert.KernelIdeal Cert.KernelIdeal.Facts₀
open Cert.ReferenceIdeal.RefValue

/-! ## The law on the extended reals -/

/-- A square of an extended real is not negative (the two infinities square to +∞). -/
theorem mul_self_nonneg' (a : EReal) : 0 ≤ a * a :=
  EReal.mul_nonneg_iff.mpr ((le_total 0 a).imp (fun h => ⟨h, h⟩) (fun h => ⟨h, h⟩))

/-- Multiplying by the reciprocal square root is dividing by the square root, at a positive real and at +∞. -/
theorem mul_rsqrt_eq_div_sqrt (x : EReal) {v : EReal} (hv : 0 < v) : x * Ideal.rsqrt v = Ideal.div x (Ideal.sqrt v) := by
  induction v using EReal.rec with
  | bot => exact absurd hv not_lt_bot
  | top =>
    rw [Ideal.rsqrt_top, Ideal.sqrt_top, Ideal.div, if_neg EReal.top_ne_zero, EReal.inv_top]
  | coe r =>
    have hr : 0 < r := EReal.coe_pos.mp hv
    have hs : 0 < Real.sqrt r := Real.sqrt_pos.mpr hr
    rw [Ideal.rsqrt_coe, if_neg (not_lt.mpr hr.le), if_neg hr.ne', Ideal.sqrt_coe, if_neg (not_lt.mpr hr.le), Ideal.div,
      if_neg (by exact_mod_cast hs.ne'), EReal.coe_inv]

/-! ## The kernel's stages, named -/

/-- Row normalisation as the kernel spells it. -/
def kHn (H : FVec Ideal S4096x128 .f32) : FVec Ideal S4096x128 .f32 :=
  divf H (broadcastTo S4096x128
    (maximumf (sqrt (shapeCast S4096x1 (multiReduction .add [1] S4096 (mulf H H) 0x00000000#32 reduces_S4096x128_S4096 (.inl rfl) rfl)
        shapeCasts_S4096_S4096x1))
      (broadcast S4096x1 (Scalar.ofBits .f32 0x2B8CBCCC#32)))
    broadcasts_S4096x1_S4096x128)

/-- Centring as the kernel spells it. -/
def kCenter (X : FVec Ideal S4096x128 .f32) : FVec Ideal S4096x128 .f32 :=
  subf X (broadcastTo S4096x128
    (divf (shapeCast S1x128 (multiReduction .add [0] S128 X 0x00000000#32 reduces_S4096x128_S128 (.inl rfl) rfl) shapeCasts_S128_S1x128)
      (broadcast S1x128 (Scalar.ofBits .f32 0x45800000#32)))
    broadcasts_S1x128_S4096x128)

/-- Scaling by the reciprocal square root of the variance plus ε₂, as the kernel spells it. -/
def kScale (Xc : FVec Ideal S4096x128 .f32) : FVec Ideal S4096x128 .f32 :=
  mulf Xc (broadcastTo S4096x128
    (rsqrt (addf
      (divf (shapeCast S1x128 (multiReduction .add [0] S128 (mulf Xc Xc) 0x00000000#32 reduces_S4096x128_S128 (.inl rfl) rfl) shapeCasts_S128_S1x128)
        (broadcast S1x128 (Scalar.ofBits .f32 0x45800000#32)))
      (broadcast S1x128 (Scalar.ofBits .f32 0x3727C5AC#32))))
    broadcasts_S1x128_S4096x128)

/-- A row laid down the 4096 rows, as the kernel spells it from a one-row array. -/
abbrev kRows (g : FVec Ideal S1x128 .f32) : FVec Ideal S4096x128 .f32 :=
  broadcastTo S4096x128 (shapeCast S1x128 g shapeCasts_S1x128_S1x128) broadcasts_S1x128_S4096x128

/-- The payload is the composition of the named stages (by unfolding). -/
theorem k0_pay1_stages (H : FVec Ideal S4096x128 .f32) (g be : FVec Ideal S1x128 .f32) (W : FVec Ideal S128x128 .f32)
    (b' : FVec Ideal S1x128 .f32) :
    Gen.k0_pay1 H g be W b'
      = addf (matmul dot_S4096x128_S128x128_S4096x128_1_1_0_0_n_n none
          (addf (mulf (kScale (kCenter (kHn H))) (kRows g)) (kRows be)) W (constant S4096x128 .f32 0x00000000#32))
        (kRows b') := rfl

/-! ## Sums, rows and pointwise operations: the kernel's spelling is the host's -/

theorem sum_cols_eq (X : FVec Ideal S4096x128 .f32) :
    multiReduction .add [0] S128 X 0x00000000#32 reduces_S4096x128_S128 (.inl rfl) rfl
      = Host.reduceAdd X zeroS Cert.ReferenceIdeal.Facts₀.reducesTo_S4096x128_S128_d0 Cert.ReferenceIdeal.Facts₀.h_S_ :=
  multiReduction_add_eq_hostReduceAdd X _ _ _ _ zeroS _ _ Ideal.ofBits_zero_f32

theorem sum_rows_eq (X : FVec Ideal S4096x128 .f32) :
    multiReduction .add [1] S4096 X 0x00000000#32 reduces_S4096x128_S4096 (.inl rfl) rfl
      = Host.reduceAdd X zeroS Cert.ReferenceIdeal.Facts₀.reducesTo_S4096x128_S4096_d1 Cert.ReferenceIdeal.Facts₀.h_S_ :=
  multiReduction_add_eq_hostReduceAdd X _ _ _ _ zeroS _ _ Ideal.ofBits_zero_f32

/-- A constant splat over a column, and over a row: the kernel's broadcast of the scalar is the host's broadcast of the
    rank-0 constant. -/
theorem splat_col (w : BitVec 32) :
    broadcast S4096x1 (Scalar.ofBits (F := Ideal) .f32 w)
      = broadcastInDim Cert.ReferenceIdeal.S4096x1 ![] Cert.ReferenceIdeal.Facts₀.bcast_S_S4096x1 (constant Cert.ReferenceIdeal.S_ .f32 w) :=
  (broadcastInDim_constant _ _ _).symm

theorem splat_row (w : BitVec 32) :
    broadcast S1x128 (Scalar.ofBits (F := Ideal) .f32 w)
      = broadcastInDim Cert.ReferenceIdeal.S1x128 ![] Cert.ReferenceIdeal.Facts₀.bcast_S_S1x128 (constant Cert.ReferenceIdeal.S_ .f32 w) :=
  (broadcastInDim_constant _ _ _).symm

theorem sqrt_eq_host {s : Shape} (x : FVec Ideal s .f32) : sqrt x = Host.sqrt x := rfl
theorem rsqrt_apply {s : Shape} (x : FVec Ideal s .f32) (i : s.Idx) : rsqrt x i = Ideal.rsqrt (x i) := rfl
theorem hostSqrt_apply {s : Shape} (x : FVec Ideal s .f32) (i : s.Idx) : Host.sqrt x i = Ideal.sqrt (x i) := rfl
theorem divf_eq_host {s : Shape} (x y : FVec Ideal s .f32) : divf x y = Host.divf x y := rfl

/-- The kernel's one-row array of a vector, laid down the rows, is the host's `rows`. -/
theorem kRows_eq (v : FVec Ideal S128 .f32) : kRows (shapeCast S1x128 v shapeCasts_S128_S1x128) = rows v := by
  unfold kRows rows
  rw [shapeCast_self, Cert.LibLayout.shapeCast_row_eq v _ Cert.ReferenceIdeal.Facts₀.bcast_S128_S1x128_1,
    Cert.LibLayout.broadcastTo_oneRow_eq _ _ Cert.ReferenceIdeal.Facts₀.bcast_S1x128_S4096x128_0_1]

/-! ## Row normalisation and centring -/

theorem hn_eq (H : FVec Ideal S4096x128 .f32) : kHn H = refHn H := by
  unfold kHn refHn refNorm
  rw [sum_rows_eq, Cert.LibLayout.shapeCast_col_eq _ _ Cert.ReferenceIdeal.Facts₀.bcast_S4096_S4096x1_0,
    Cert.LibLayout.broadcastTo_oneCol_eq _ _ Cert.ReferenceIdeal.Facts₀.bcast_S4096x1_S4096x128_0_1,
    splat_col, sqrt_eq_host, divf_eq_host]

theorem center_var_eq (X : FVec Ideal S4096x128 .f32) : kCenter X = refVarCenter X := by
  unfold kCenter refVarCenter
  rw [sum_cols_eq, Cert.LibLayout.shapeCast_row_eq _ _ Cert.ReferenceIdeal.Facts₀.bcast_S128_S1x128_1,
    splat_row, divf_eq_host,
    Cert.LibLayout.broadcastTo_oneRow_eq _ _ Cert.ReferenceIdeal.Facts₀.bcast_S1x128_S4096x128_0_1]

/-- The reference's two spellings of the centred features (the mean divided before or after it is laid out as a row)
    are one array: a broadcast reads its operand entry by entry, and the divisor is a constant. -/
theorem refCenter_eq_var (X : FVec Ideal S4096x128 .f32) : refCenter X = refVarCenter X := by
  unfold refCenter refVarCenter refMean
  refine congrArg (subf X) (congrArg (broadcastInDim _ _ _) ?_)
  funext i
  rfl

theorem center_eq (X : FVec Ideal S4096x128 .f32) : kCenter X = refCenter X :=
  (center_var_eq X).trans (refCenter_eq_var X).symm

/-! ## The scaling: multiplying by the reciprocal square root against dividing by the square root -/

/-- The column sums of squares are not negative: they start from 0 and add squares. -/
theorem sumsq_nonneg (Xc : FVec Ideal S4096x128 .f32) (k : Fin 128) :
    0 ≤ Host.reduceAdd (mulf Xc Xc) zeroS Cert.ReferenceIdeal.Facts₀.reducesTo_S4096x128_S128_d0
      Cert.ReferenceIdeal.Facts₀.h_S_ (ix1 k) := by
  rw [hostReduceAdd_apply, Ideal.hostReduceAdd_single _ reduces_S4096x128_S128]
  have h0 : zeroS (Shape.Idx.first Cert.ReferenceIdeal.Facts₀.h_S_) = 0 := Ideal.ofBits_zero_f32
  rw [h0, zero_add]
  exact Finset.sum_nonneg fun i _ => mul_self_nonneg' _

/-- The divisor of the reference's variance, 4096 minus the converted integer 0, is the real 4096. -/
theorem varDenom_eq : refVarDenom ix0 = ((4096 : ℝ) : EReal) := by
  unfold refVarDenom
  rw [subf_apply, constant_apply, sitofp_apply, constantI_apply, Cert.Consts.ofBits_4096]
  show ((4096 : ℝ) : EReal) - (Scalar.sitofp .f32 (0#32 : BitVec 32) : Ideal .f32) = _
  rw [sitofp_zero, sub_zero]

/-- So the guard of its select holds. -/
theorem varGuard_eq : cmpf .ogt refVarDenom zeroS ix0 = 1#1 := by
  rw [cmpf_apply, varDenom_eq]
  have hz : zeroS ix0 = 0 := Ideal.ofBits_zero_f32
  rw [hz, Ideal.cmpf_def]
  have h : (0 : EReal) < ((4096 : ℝ) : EReal) := EReal.coe_pos.mpr (by norm_num)
  simp [Ideal.cmp, h]

/-- The reference's variance of centred features at column k: the column's sum of squares over 4096. -/
theorem refVarOf_apply (Xc : FVec Ideal S4096x128 .f32) (k : Fin 128) :
    refVarOf Xc (ix1 k)
      = Ideal.div (Host.reduceAdd (mulf Xc Xc) zeroS Cert.ReferenceIdeal.Facts₀.reducesTo_S4096x128_S128_d0
          Cert.ReferenceIdeal.Facts₀.h_S_ (ix1 k)) ((4096 : ℝ) : EReal) := by
  unfold refVarOf
  rw [select_apply, broadcastInDim_scalar_apply, varGuard_eq, select_one, hostDivf_apply, broadcastInDim_scalar_apply,
    varDenom_eq]

/-- A variance plus ε₂ is positive: a sum of squares over 4096 is not negative and ε₂ is a positive real. -/
theorem var_add_eps_pos {r : EReal} (hr : 0 ≤ r) :
    0 < Ideal.div r ((4096 : ℝ) : EReal) + Ideal.ofBits .f32 0x3727C5AC#32 := by
  obtain ⟨e, he, hE⟩ := Cert.Consts.ofBits_eps_pos
  rw [hE, Ideal.div_coe (by norm_num : (4096 : ℝ) ≠ 0)]
  have h1 : (0 : EReal) ≤ r * ((1 / 4096 : ℝ) : EReal) :=
    EReal.mul_nonneg hr (EReal.coe_nonneg.mpr (by norm_num))
  exact (EReal.coe_pos.mpr he).trans_le (le_add_of_nonneg_left h1)

/-- The kernel's scaling of centred features is the reference's division by the square root of its variance plus ε₂. -/
theorem scale_eq (Xc : FVec Ideal S4096x128 .f32) :
    kScale Xc = Host.divf Xc (rows (Host.sqrt (addf (refVarOf Xc)
      (broadcastInDim Cert.ReferenceIdeal.S128 ![] Cert.ReferenceIdeal.Facts₀.bcast_S_S128
        (constant Cert.ReferenceIdeal.S_ .f32 0x3727C5AC#32))))) := by
  funext idx
  obtain ⟨i, k, rfl⟩ : ∃ (i : Fin 4096) (k : Fin 128), idx = ix2 i k := ⟨idx 0, idx 1, eq_ix2 idx⟩
  unfold kScale
  rw [sum_cols_eq, mulf_apply, broadcastTo_1b_ab_apply, hostDivf_apply, rows_apply, rsqrt_apply, hostSqrt_apply,
    addf_apply, divf_apply, shapeCast_a_1a_apply, broadcast_apply, broadcast_apply, addf_apply, refVarOf_apply,
    broadcastInDim_scalar_apply, constant_apply]
  show Xc (ix2 i k) * Ideal.rsqrt (Ideal.div _ (Ideal.ofBits .f32 0x45800000#32) + Ideal.ofBits .f32 0x3727C5AC#32) = _
  rw [Cert.Consts.ofBits_4096]
  exact mul_rsqrt_eq_div_sqrt _ (var_add_eps_pos (sumsq_nonneg Xc k))

/-! ## The payload is the reference's features -/

/-- The first region's payload of the features, the weights and the three vectors laid out as rows is the reference's
    composition of row normalisation, batch normalisation and the linear layer. -/
theorem prologue_eq (H : FVec Ideal S4096x128 .f32) (W : FVec Ideal S128x128 .f32) (b γ β : FVec Ideal S128 .f32) :
    Gen.k0_pay1 H (shapeCast S1x128 γ shapeCasts_S128_S1x128) (shapeCast S1x128 β shapeCasts_S128_S1x128) W
        (shapeCast S1x128 b shapeCasts_S128_S1x128)
      = refLin H W b γ β := by
  rw [k0_pay1_stages, linear_eq]
  unfold refLin
  refine congrArg (fun Y => refLinear Y W b) ?_
  rw [kRows_eq, kRows_eq, hn_eq, scale_eq]
  unfold refBn refVar
  rw [← center_eq (refHn H), ← center_var_eq (refHn H)]

end Cert.Bridge

end
-- ==== Proof.lean ====
/-
  The certificate of the graph-convolution layer: the kernel (two regions: normalisation, batch statistics and the
  linear layer in one; the adjacency product with the leaky rectifier, block by block, in the other) against the plain
  reference.

  * The two kernel programs' frames are the generated frame certificates.
  * The reference's frame is its run with the result dropped.
  * The idealization rewrote nothing, so `preserves` asks nothing.
  * Equality over the extended reals: the kernel's run leaves, in its result, the leaky rectifier of the adjacency
    product of A with the first region's payload; the reference's run leaves its staged composition of the same
    arguments; the payload is the reference's features (every stage the same operations up to layout, the scaling by
    the law  x · rsqrt v = x / sqrt v  at a positive v: the variance plus ε₂), and the reference's last stage is the
    leaky rectifier of the adjacency product entry by entry. The precondition is never opened: every law used holds on
    all extended reals.
-/
import proofs.«125105_g35983236006066_cont_8to1_b_995_4_alg».proof.Defs
import proofs.«125105_g35983236006066_cont_8to1_b_995_4_alg».proof.Proof.Gen.Kernel
import proofs.«125105_g35983236006066_cont_8to1_b_995_4_alg».proof.Proof.Gen.Kernel.Frame
import proofs.«125105_g35983236006066_cont_8to1_b_995_4_alg».proof.Proof.Gen.KernelIdeal
import proofs.«125105_g35983236006066_cont_8to1_b_995_4_alg».proof.Proof.Gen.KernelIdeal.Frame
import proofs.«125105_g35983236006066_cont_8to1_b_995_4_alg».proof.Proof.Gen.ReferenceIdeal
import proofs.«125105_g35983236006066_cont_8to1_b_995_4_alg».proof.Proof.Gen.Pre_finite_inputs
import proofs.«125105_g35983236006066_cont_8to1_b_995_4_alg».proof.Proof.KernelRun
import proofs.«125105_g35983236006066_cont_8to1_b_995_4_alg».proof.Proof.KernelValue
import proofs.«125105_g35983236006066_cont_8to1_b_995_4_alg».proof.Proof.RefRun
import proofs.«125105_g35983236006066_cont_8to1_b_995_4_alg».proof.Proof.Prologue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories agreeing on the six arguments both programs end with the same result: the leaky rectifier of the
    adjacency product of A with the features, which the kernel's first region and the reference's stages compute alike. -/
theorem algebraic : Cert.algebraic_KernelIdeal_ReferenceIdeal := by
  intro m ρ m' ρ' _ hagree
  refine ⟨fun c => Cert.Spec.leakyMM (m ((c.tc : Thread Cert.KernelIdeal.nD Cert.KernelIdeal.τ).loc Cert.KernelIdeal.main_arg1))
    (Cert.KernelIdeal.KValue.kLin m c), ?_, ?_⟩
  · exact (θ_run Cert.KernelIdeal.defs _ _).mono
      (fun r h c => ⟨(h c).1.trans (Cert.KernelIdeal.KValue.result_eq m ρ c), (h c).2⟩)
      (Cert.KernelIdeal.Run.run_result m ρ)
  · refine (θ_run Cert.ReferenceIdeal.defs _ _).mono (fun r h c => ⟨(h c).1.trans ?_, (h c).2⟩)
      (Cert.ReferenceIdeal.RefValue.run m' ρ')
    obtain ⟨h0, h1, h2, h3, h4, h5⟩ := hagree c
    rw [h0, h1, h2, h3, h4, h5]
    show Cert.ReferenceIdeal.RefValue.refOut _ _ _ _ _ _ = Cert.Spec.leakyMM _ (Cert.KernelIdeal.KValue.kLin m c)
    unfold Cert.ReferenceIdeal.RefValue.refOut Cert.KernelIdeal.KValue.kLin
    rw [Cert.Bridge.spmm_eq, Cert.Bridge.prologue_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
